-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1536 : Shape := ⟨2, ![4096, 1536]⟩
abbrev S1536x1536 : Shape := ⟨2, ![1536, 1536]⟩
abbrev S1536 : Shape := ⟨1, ![1536]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S1536x1536 : S_.BroadcastsInDim S1536x1536 (![] : Fin 0 → Fin S1536x1536.rank)
  reducesTo_S1536x1536_S_d0_1 : S1536x1536.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  main_v18

def fn {F : FTy → Type} [FloatOps F] (main_arg0 : FVec F S4096x1536 .f32) (main_arg1 : FVec F S4096x1536 .f32) (main_arg2 : FVec F S1536x1536 .f32) (main_arg3 : FVec F S1536 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x1536 .f32 := Host.absf main_arg1
  let main_cst_0 : FVec F S_ .f32 := constant S_ .f32 0x7F800000#32
  let main_v5 : FVec F S4096x1536 .f32 := broadcastInDim S4096x1536 ![] bcast_S_S4096x1536 main_cst_0
  let main_v6 : IVec S4096x1536 1 := cmpf .olt main_v4 main_v5
  let main_c_1 : IVec S_ 1 := constantI S_ 1 1#1
  let main_v7 : IVec S_ 1 := (fun x v => Host.reduce IntOp.andi x v reducesTo_S4096x1536_S_d0_1 h_S_) main_v6 main_c_1
  let main_v8 : IVec S_ 1 := andi main_v3 main_v7
  let main_v9 : FVec F S1536x1536 .f32 := Host.absf main_arg2
  let main_cst_2 : FVec F S_ .f32 := constant S_ .f32 0x7F800000#32
  let main_v10 : FVec F S1536x1536 .f32 := broadcastInDim S1536x1536 ![] bcast_S_S1536x1536 main_cst_2
  let main_v11 : IVec S1536x1536 1 := cmpf .olt main_v9 main_v10
  let main_c_3 : IVec S_ 1 := constantI S_ 1 1#1
  let main_v12 : IVec S_ 1 := (fun x v => Host.reduce IntOp.andi x v reducesTo_S1536x1536_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_v13 main_v16
-- ==== Kernel.lean ====
abbrev S4096x1536 : Shape := ⟨2, ![4096, 1536]⟩
abbrev S1536x1536 : Shape := ⟨2, ![1536, 1536]⟩
abbrev S1536 : Shape := ⟨1, ![1536]⟩
abbrev S1x1536 : Shape := ⟨2, ![1, 1536]⟩
abbrev S512x1536 : Shape := ⟨2, ![512, 1536]⟩
abbrev S4096x4096 : Shape := ⟨2, ![4096, 4096]⟩
abbrev S1024x1536 : Shape := ⟨2, ![1024, 1536]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S1536x1536, .f32⟩
  | .hbm, ⟨3, _⟩ => ⟨S1536, .f32⟩
  | .hbm, ⟨4, _⟩ => ⟨S1536x1536, .bf16⟩
  | .hbm, ⟨5, _⟩ => ⟨S1x1536, .f32⟩
  | .hbm, ⟨6, _⟩ => ⟨S4096x1536, .f32⟩
  | .hbm, ⟨7, _⟩ => ⟨S4096x4096, .f32⟩
  | .local _ .vmem, ⟨0, _⟩ => ⟨S512x1536, .f32⟩
  | .local _ .vmem, ⟨1, _⟩ => ⟨S512x1536, .f32⟩
  | .local _ .vmem, ⟨2, _⟩ => ⟨S1536x1536, .bf16⟩
  | .local _ .vmem, ⟨3, _⟩ => ⟨S1x1536, .f32⟩
  | .local _ .vmem, ⟨4, _⟩ => ⟨S512x1536, .f32⟩
  | .local _ .vmem, ⟨5, _⟩ => ⟨S512x1536, .f32⟩
  | .local _ .vmem, ⟨6, _⟩ => ⟨S1024x1536, .f32⟩
  | .local _ .vmem, ⟨7, _⟩ => ⟨S1024x1536, .f32⟩
  | .local _ .vmem, ⟨8, _⟩ => ⟨S512x1536, .f32⟩
  | .local _ .vmem, ⟨9, _⟩ => ⟨S512x1536, .f32⟩
  | .local _ .vmem, ⟨10, _⟩ => ⟨S1024x512, .f32⟩
  | .local _ .vmem, ⟨11, _⟩ => ⟨S1024x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  shapeCasts_S1536_S1x1536 : S1536.ShapeCasts S1x1536
  inb_S512x1536_S512x1536_0_0 : ∀ a, (![0, 0] : Fin 2 → Nat) a + S512x1536.size a ≤ S512x1536.size a
  h_S512x1536 : 0 < S512x1536.numel
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  inb_S1024x1536_S1024x1536_0_0 : ∀ a, (![0, 0] : Fin 2 → Nat) a + S1024x1536.size a ≤ S1024x1536.size a
  h_S1024x1536 : 0 < S1024x1536.numel
  shapeCasts_S512x1536_S512x1536 : S512x1536.ShapeCasts S512x1536
  reduces_S1024x1536_S1024 : S1024x1536.Reduces [1] S1024
  shapeCasts_S1024_S1024x1 : S1024.ShapeCasts S1024x1
  reduces_S512x1536_S512 : S512x1536.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S512x1536_S1536x1536_S512x1536_1_1_0_0_n_n_wf : DotDims.WF S512x1536 S1536x1536 S512x1536 [1] [1] [0] [0] [] []
  dot_S1024x1536_S512x1536_S1024x512_1_1_0_0_n_n_wf : DotDims.WF S1024x1536 S512x1536 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1536.size a ≤ S4096x1536.size a
  hwx0_0 : ∀ i : grid0.Coords, EltTy.bits .f32 = 32 ∨ (Rect.block (s := S4096x1536) S512x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x1536.size a ≤ S1536x1536.size a
  hwx0_1 : ∀ i : grid0.Coords, EltTy.bits .bf16 = 32 ∨ (Rect.block (s := S1536x1536) S1536x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S4096x1536.size a
  hwx0_3 : ∀ i : grid0.Coords, EltTy.bits .f32 = 32 ∨ (Rect.block (s := S4096x1536) S512x1536.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1536.size a ≤ S4096x1536.size a
  hwx1_0 : ∀ i : grid1.Coords, EltTy.bits .f32 = 32 ∨ (Rect.block (s := S4096x1536) S1024x1536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1536.size a ≤ S4096x1536.size a
  hwx1_1 : ∀ i : grid1.Coords, EltTy.bits .f32 = 32 ∨ (Rect.block (s := S4096x1536) S512x1536.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x4096.size a
  hwx1_2 : ∀ i : grid1.Coords, EltTy.bits .f32 = 32 ∨ (Rect.block (s := S4096x4096) S1024x512.size (cc1_transform_2 i) (hinb1_2 i)).WholeWords (EltTy.packing .f32)

variable [Facts₀]

def dot_S512x1536_S1536x1536_S512x1536_1_1_0_0_n_n : DotDims S512x1536 S1536x1536 S512x1536 where
  lhsContracting := [1]
  rhsContracting := [1]
  lhsNonContracting := [0]
  rhsNonContracting := [0]
  lhsBatch := []
  rhsBatch := []
  wf := dot_S512x1536_S1536x1536_S512x1536_1_1_0_0_n_n_wf
def dot_S1024x1536_S512x1536_S1024x512_1_1_0_0_n_n : DotDims S1024x1536 S512x1536 S1024x512 where
  lhsContracting := [1]
  rhsContracting := [1]
  lhsNonContracting := [0]
  rhsNonContracting := [0]
  lhsBatch := []
  rhsBatch := []
  wf := dot_S1024x1536_S512x1536_S1024x512_1_1_0_0_n_n_wf

abbrev win0_0 : Pipeline.Window sig grid0 :=
  Pipeline.Window.ofSpec (Memref.whole main_arg1) S512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1536 : Shape := ⟨2, ![4096, 1536]⟩
abbrev S1536x1536 : Shape := ⟨2, ![1536, 1536]⟩
abbrev S1536 : Shape := ⟨1, ![1536]⟩
abbrev S1x1536 : Shape := ⟨2, ![1, 1536]⟩
abbrev S_ : Shape := ⟨0, ![]⟩
abbrev S4096 : Shape := ⟨1, ![4096]⟩
abbrev S1536x4096 : Shape := ⟨2, ![1536, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S1536x1536, .f32⟩
  | .hbm, ⟨3, _⟩ => ⟨S1536, .f32⟩
  | .hbm, ⟨4, _⟩ => ⟨S1536x1536, .f32⟩
  | .hbm, ⟨5, _⟩ => ⟨S4096x1536, .f32⟩
  | .hbm, ⟨6, _⟩ => ⟨S1x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S_, .f32⟩
  | .hbm, ⟨11, _⟩ => ⟨S4096, .f32⟩
  | .hbm, ⟨12, _⟩ => ⟨S4096x1536, .f32⟩
  | .hbm, ⟨13, _⟩ => ⟨S_, .f32⟩
  | .hbm, ⟨14, _⟩ => ⟨S4096, .f32⟩
  | .hbm, ⟨15, _⟩ => ⟨S1536x4096, .f32⟩
  | .hbm, ⟨16, _⟩ => ⟨S4096x4096, .f32⟩
  | .hbm, ⟨17, _⟩ => ⟨S4096x1, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S1536x1536_S1536x1536_1_0 : S1536x1536.Transposes [1, 0] S1536x1536
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  reducesTo_S4096x1536_S4096_d1 : S4096x1536.ReducesTo [1] S4096
  h_S_ : 0 < S_.numel
  transposes_S4096x1536_S1536x4096_1_0 : S4096x1536.Transposes [1, 0] S1536x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x1536_S1536x1536_S4096x1536_1_0_0_1_n_n_wf : DotDims.WF S4096x1536 S1536x1536 S4096x1536 [1] [0] [0] [1] [] []
  dot_S4096x1536_S1536x4096_S4096x4096_1_0_0_1_n_n_wf : DotDims.WF S4096x1536 S1536x4096 S4096x4096 [1] [0] [0] [1] [] []

variable [Facts₀]

def dot_S4096x1536_S1536x1536_S4096x1536_1_0_0_1_n_n : DotDims S4096x1536 S1536x1536 S4096x1536 where
  lhsContracting := [1]
  rhsContracting := [0]
  lhsNonContracting := [0]
  rhsNonContracting := [1]
  lhsBatch := []
  rhsBatch := []
  wf := dot_S4096x1536_S1536x1536_S4096x1536_1_0_0_1_n_n_wf
def dot_S4096x1536_S1536x4096_S4096x4096_1_0_0_1_n_n : DotDims S4096x1536 S1536x4096 S4096x4096 where
  lhsContracting := [1]
  rhsContracting := [0]
  lhsNonContracting := [0]
  rhsNonContracting := [1]
  lhsBatch := []
  rhsBatch := []
  wf := dot_S4096x1536_S1536x4096_S4096x4096_1_0_0_1_n_n_wf

class Facts : Prop extends Facts₀ where

variable [Facts]
-- ==== Proof.Spec.lean ====
/-
  The two functions both programs compute, over the extended reals, by coordinates.

  `proj x w b` is the projected rows: row `r`, column `d` holds the inner product of row `r` of `x` with row `d` of `w`,
  plus `b d`. `dist t s` is the matrix of squared distances by the norm decomposition: entry `(p, q)` is the squared norm of
  row `p` of `t`, plus the squared norm of row `q` of `s`, minus twice their inner product. The factor two is kept as the
  binary word both programs print for it; nothing here evaluates it.
-/
import Idealize.ShloMosaic.PureOps.Ideal.Laws
import Idealize.ShloMosaic.Lib.ValueIdx

noncomputable section

open scoped BigOperators

namespace Cert.Spec

open Idealize.ShloMosaic Idealize.ShloMosaic.ValueIdx

/-- Entry `(r, d)` of the projection: `∑ k, x[r,k] · w[d,k] + b[d]`. -/
def projAt (x : FVec Ideal ⟨2, ![4096, 1536]⟩ .f32) (w : FVec Ideal ⟨2, ![1536, 1536]⟩ .f32) (b : FVec Ideal ⟨1, ![1536]⟩ .f32)
    (r : Fin 4096) (d : Fin 1536) : EReal :=
  (∑ k : Fin 1536, x (ix2 r k) * w (ix2 d k)) + b (ix1 d)

/-- The projected rows as one array. -/
def proj (x : FVec Ideal ⟨2, ![4096, 1536]⟩ .f32) (w : FVec Ideal ⟨2, ![1536, 1536]⟩ .f32) (b : FVec Ideal ⟨1, ![1536]⟩ .f32) :
    FVec Ideal ⟨2, ![4096, 1536]⟩ .f32 :=
  fun i => projAt x w b (i 0) (i 1)

theorem proj_apply (x : FVec Ideal ⟨2, ![4096, 1536]⟩ .f32) (w : FVec Ideal ⟨2, ![1536, 1536]⟩ .f32) (b : FVec Ideal ⟨1, ![1536]⟩ .f32)
    (r : Fin 4096) (d : Fin 1536) : proj x w b (ix2 r d) = projAt x w b r d := rfl

/-- Entry `(p, q)` of the distance matrix: `(∑ k, t[p,k]² + ∑ k, s[q,k]²) − 2 · ∑ k, t[p,k] · s[q,k]`. -/
def distAt (t s : FVec Ideal ⟨2, ![4096, 1536]⟩ .f32) (p q : Fin 4096) : EReal :=
  ((∑ k : Fin 1536, t (ix2 p k) * t (ix2 p k)) + (∑ k : Fin 1536, s (ix2 q k) * s (ix2 q k)))
    - Ideal.ofBits .f32 0x40000000#32 * ∑ k : Fin 1536, t (ix2 p k) * s (ix2 q k)

/-- The distance matrix as one array. -/
def dist (t s : FVec Ideal ⟨2, ![4096, 1536]⟩ .f32) : FVec Ideal ⟨2, ![4096, 4096]⟩ .f32 :=
  fun i => distAt t s (i 0) (i 1)

theorem dist_apply (t s : FVec Ideal ⟨2, ![4096, 1536]⟩ .f32) (p q : Fin 4096) :
    dist t s (ix2 p q) = distAt t s p q := rfl

end Cert.Spec

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.ProjValue.lean ====
/-
  The first kernel region's value: every grid point takes a block of 512 rows of the first operand, multiplies it against
  the whole weight matrix along both operands' second axes and adds the bias row, so after the region the output array
  holds the projection `Cert.Spec.proj` of the three arrays the region reads, whatever they are.
-/
import proofs.«109918_j71829033058971_1_alg».proof.Proof.Gen.KernelIdeal.Frame
import proofs.«109918_j71829033058971_1_alg».proof.Proof.Spec
import proofs.«109918_j71829033058971_1_alg».proof.Proof.LibContraction
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Two indices of a rank-two array with the same coordinates read the same entry. -/
theorem read_congr {n0 n1 : Nat} {α : Type} (X : (⟨2, ![n0, n1]⟩ : Shape).Idx → α) (i i' : (⟨2, ![n0, n1]⟩ : Shape).Idx)
    (h0 : (i 0).val = (i' 0).val) (h1 : (i 1).val = (i' 1).val) : X i = X i' :=
  congrArg X (funext fun a => Fin.ext (by
    match a with
    | ⟨0, _⟩ => exact h0
    | ⟨1, _⟩ => exact h1))

/-- The body's stored value at `(p, d)`: the inner product of row `p` of the loaded block with row `d` of the weights, plus
    the bias row at `d`. The change of float format is the identity on the extended reals, and the product into a zero
    accumulator is the plain sum over the contracted axis. -/
theorem pay_apply (x0 : Vec Ideal S512x1536 .f32) (x1 : Vec Ideal S1536x1536 .bf16) (x2 : Vec Ideal S1x1536 .f32)
    (p : Fin 512) (d : Fin 1536) :
    k0_pay1 (F := Ideal) x0 x1 x2 (ix2 p d)
      = (∑ k : Fin 1536, x0 (ix2 p k) * x1 (ix2 d k)) + x2 (ix2 (0 : Fin 1) d) := by
  unfold k0_pay1
  rw [addf_apply, shapeCast_self, shapeCast_self, broadcastTo_1b_ab_apply]
  refine congrArg (· + x2 (ix2 (0 : Fin 1) d)) ?_
  simp only [matmul]
  rw [Ideal.matmul_constant_zero_apply,
    Cert.Lib.Contraction.sum_contr dot_S512x1536_S1536x1536_S512x1536_1_1_0_0_n_n (cl := 1) rfl 1536 rfl]
  refine Finset.sum_congr rfl fun k _ => ?_
  rw [truncf_apply]
  refine congrArg₂ (· * ·) (read_congr x0 _ _ ?_ ?_) (read_congr x1 _ _ ?_ ?_)
  · exact Cert.Lib.Contraction.lhs_free dot_S512x1536_S1536x1536_S512x1536_1_1_0_0_n_n (nl := 0) rfl rfl _ _ (by decide)
  · exact Cert.Lib.Contraction.lhs_contracted dot_S512x1536_S1536x1536_S512x1536_1_1_0_0_n_n (cl := 1) rfl 1536 rfl _ k
  · exact Cert.Lib.Contraction.rhs_free dot_S512x1536_S1536x1536_S512x1536_1_1_0_0_n_n (nl := 0) (nr := 0) rfl rfl rfl rfl _ _ (by decide)
  · exact Cert.Lib.Contraction.rhs_contracted dot_S512x1536_S1536x1536_S512x1536_1_1_0_0_n_n (cl := 1) (cr := 1) rfl rfl 1536 rfl _ k

/-- The zero offsets of a whole-block access, spelt as the body spells them. -/
theorem hz : (![0, 0] : Fin 2 → Nat) = fun _ => 0 := funext fun a => by fin_cases a <;> rfl

section Region

variable (V : (c : Dev nD) → (b : Ref sig .tc) → Buf (Elt Ideal) ((c : Thread nD τ).loc b))

/-- The rows the region projects, as it finds them. -/
abbrev rowsArr (c : Dev nD) : FVec Ideal ⟨2, ![4096, 1536]⟩ .f32 := V c main_arg1
/-- The weight matrix, as the region finds it. -/
abbrev wArr (c : Dev nD) : FVec Ideal ⟨2, ![1536, 1536]⟩ .f32 := V c main_v0
/-- The bias, read off the one-row array the region finds. -/
abbrev biasArr (c : Dev nD) : FVec Ideal ⟨1, ![1536]⟩ .f32 := fun j => V c main_v1 (ix2 (0 : Fin 1) (j 0))

/-- What the output array ends holding: the projection of the arrays the region reads. -/
def result (c : Dev nD) : FVec Ideal ⟨2, ![4096, 1536]⟩ .f32 := Cert.Spec.proj (rowsArr V c) (wArr V c) (biasArr V c)

/-- The index maps over the grid: the row block of the input rows is the output's, every other block index is zero, and
    there are eight row blocks. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (1 : Fin 2) = 0
    ∧ win0_3.index t (0 : Fin 2) ≤ 7 :=
  (by decide +kernel : ∀ t : Fin grid0.N, _)

/-- Every row block is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- What point `t` writes back is block `t` of the projection: row `p` of the block is row `512 · (row block) + p` of the
    rows, against the whole weight matrix and the whole bias. -/
theorem flushed_eq (c : Dev nD) (t : Fin cfg0.N) :
    (dat0 (F := Ideal) V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S512x1536) hz, View.ld_unit_zero (S := S1536x1536) hz, View.ld_unit_zero (S := S1x1536) hz]
  obtain ⟨e0, e1, e2, e3, e4, e5, e6, e7⟩ := idx_facts t
  funext j
  obtain ⟨p, d, rfl⟩ : ∃ (p : Fin 512) (d : Fin 1536), j = ix2 p d := ⟨j 0, j 1, eq_ix2 j⟩
  show k0_pay1 (F := Ideal) (iblk0 V c 0 t) (iblk0 V c 1 t) (iblk0 V c 2 t) (ix2 p d)
    = Cert.Spec.projAt (rowsArr V c) (wArr V c) (biasArr V c) ((((cfg0.win 3).blk t).view.emb (ix2 p d)) 0) ((((cfg0.win 3).blk t).view.emb (ix2 p d)) 1)
  refine (pay_apply (iblk0 V c 0 t) (iblk0 V c 1 t) (iblk0 V c 2 t) p d).trans ?_
  unfold Cert.Spec.projAt
  refine congrArg₂ (· + ·) (Finset.sum_congr rfl fun k _ => congrArg₂ (· * ·) ?_ ?_) ?_
  · show V c main_arg1 (((cfg0.win 0).blk t).view.emb (ix2 p k)) = V c main_arg1 (ix2 ((((cfg0.win 3).blk t).view.emb (ix2 p d)) 0) k)
    refine read_congr (V c main_arg1) _ _ ?_ ?_
    · show win0_0.index t (0 : Fin 2) * 512 + 1 * p.val = win0_3.index t (0 : Fin 2) * 512 + 1 * p.val; omega
    · show win0_0.index t (1 : Fin 2) * 1536 + 1 * k.val = k.val; omega
  · show V c main_v0 (((cfg0.win 1).blk t).view.emb (ix2 d k)) = V c main_v0 (ix2 ((((cfg0.win 3).blk t).view.emb (ix2 p d)) 1) k)
    refine read_congr (V c main_v0) _ _ ?_ ?_
    · show win0_1.index t (0 : Fin 2) * 1536 + 1 * d.val = win0_3.index t (1 : Fin 2) * 1536 + 1 * d.val; omega
    · show win0_1.index t (1 : Fin 2) * 1536 + 1 * k.val = k.val; omega
  · show V c main_v1 (((cfg0.win 2).blk t).view.emb (ix2 (0 : Fin 1) d)) = V c main_v1 (ix2 (0 : Fin 1) ((((cfg0.win 3).blk t).view.emb (ix2 p d)) 1))
    refine read_congr (V c main_v1) _ _ ?_ ?_
    · show win0_2.index t (0 : Fin 2) * 1 + 1 * 0 = 0; omega
    · show win0_2.index t (1 : Fin 2) * 1536 + 1 * d.val = win0_3.index t (1 : Fin 2) * 1536 + 1 * d.val; omega

/-- An index of the output array is in point `t`'s block iff each coordinate is in the block's range on its axis. -/
theorem mem_blk (t : Fin cfg0.N) (i : S4096x1536.Idx) :
    i ∈ ((cfg0.win 3).blk t).view.set ↔ ∀ a : Fin 2, win0_3.index t a * S512x1536.size a ≤ (i a).val ∧ (i a).val < win0_3.index t a * S512x1536.size a + S512x1536.size a := by
  show i ∈ ((View.whole main_v2).slice (win0_3.rect t)).set ↔ _
  rw [View.set_slice_whole, Rect.mem_set_unit]
  exact Iff.rfl

/-- Every index of the output array is in the block of the point whose row block holds its row. -/
theorem cover (i : S4096x1536.Idx) :
    ∃ t : Fin cfg0.N, (cfg0.win 3).flush t = true ∧ i ∈ ((cfg0.win 3).blk t).view.set := by
  have hi0 : (i 0).val < 4096 := (i 0).isLt
  have hi1 : (i 1).val < 1536 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1536 ≤ (i 1).val ∧ (i 1).val < win0_3.index t (1 : Fin 2) * 1536 + 1536; omega

/-- After the region its output array holds the projection of the arrays it read. -/
theorem final (c : Dev nD) : (dat0 (F := Ideal) V c).arrAt 3 cfg0.N = result V c :=
  (dat0 (F := Ideal) V c).arrAt_eq_of_cover 3 (result V c) (fun t _ => flushed_eq V c t) (cover)

end Region

end Cert.KernelIdeal.ProjValue

end
-- ==== Proof.DistValue.lean ====
/-
  The value of the distance region: for any contents of the arrays when the region is entered, the output array ends
  holding the matrix of squared distances between the rows of its two input arrays.

  Three steps. At an index `(p, q)` of an output block the body's stored value is
  `(∑ₖ x₀[p,k]² + ∑ₖ x₁[q,k]²) − 2 · ∑ₖ x₀[p,k] · x₁[q,k]` over its two loaded blocks: the row sums are lane sums read
  through a column cast and a broadcast, the second one also through a transpose, and the product is a contraction over the
  second axis of both blocks. The output block at a grid point `(r, s)` sits at rows `1024 r …` and columns `512 s …`
  of the output; the first input block at the same point is rows `1024 r …` of the first array and the second input block
  is rows `512 s …` of the second array, so what the point writes back is its block of the distance matrix. The output
  blocks tile the `4096 × 4096` array (the point covering `(i₀, i₁)` is `(i₀ / 1024, i₁ / 512)`), so the array ends
  holding the distance matrix.
-/
import proofs.«109918_j71829033058971_1_alg».proof.Proof.Gen.KernelIdeal.Frame
import proofs.«109918_j71829033058971_1_alg».proof.Proof.Spec
import proofs.«109918_j71829033058971_1_alg».proof.Proof.LibContraction
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DistValue

open Cert.KernelIdeal Cert.KernelIdeal.Gen Idealize.ShloMosaic Idealize.ShloMosaic.TcCoe Idealize.SL.Sem
open Idealize.ShloMosaic.ValueIdx
open Idealize.ShloMosaic.Pipeline (Dat)

/-! ## Small index facts -/

section Columns
variable {α : Type}

/-- Over a row index `p`, the index of a matrix with `k` inserted on the reduced second axis is `(p, k)`. -/
theorem lift_row {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (⟨k.val, k.isLt⟩ : Fin b) := by
  funext c
  apply Fin.ext
  show h.liftVal (ix1 p) k.val c = _
  unfold Shape.Reduces.liftVal
  match c with
  | ⟨0, _⟩ => simp
  | ⟨1, _⟩ => simp

/-- A sum along the rows of a matrix at `Ideal`, read at row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_row h p k)

/-- A vector of length `a` cast to a column `[a, 1]` reads, at `(p, 0)`, the vector at `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) := by
  refine shapeCast_apply x h (ix2 p z) (ix1 p) ?_
  rw [Shape.rowMajor_val_one, Shape.rowMajor_val_two]
  have hz : z.val = 0 := by omega
  show p.val = p.val * 1 + z.val
  omega

/-- A column `[a, 1]` broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Columns

/-! ## The product of the two blocks -/

theorem dot_lhs_row (j : S1024x512.Idx) (k : dot_S1024x1536_S512x1536_S1024x512_1_1_0_0_n_n.contr.Idx) :
    (dot_S1024x1536_S512x1536_S1024x512_1_1_0_0_n_n.lhsIdx j k 0).val = (j 0).val :=
  Cert.Lib.Contraction.lhs_free dot_S1024x1536_S512x1536_S1024x512_1_1_0_0_n_n rfl rfl j k (by decide)

theorem dot_rhs_row (j : S1024x512.Idx) (k : dot_S1024x1536_S512x1536_S1024x512_1_1_0_0_n_n.contr.Idx) :
    (dot_S1024x1536_S512x1536_S1024x512_1_1_0_0_n_n.rhsIdx j k 0).val = (j 1).val :=
  Cert.Lib.Contraction.rhs_free dot_S1024x1536_S512x1536_S1024x512_1_1_0_0_n_n rfl rfl rfl rfl j k (by decide)

theorem dot_lhs_pos (j : S1024x512.Idx) (i : Fin 1536) :
    (dot_S1024x1536_S512x1536_S1024x512_1_1_0_0_n_n.lhsIdx j
      ((Cert.Lib.Contraction.contrFin dot_S1024x1536_S512x1536_S1024x512_1_1_0_0_n_n (cl := 1) rfl 1536 rfl).symm i) 1).val = i.val :=
  Cert.Lib.Contraction.lhs_contracted dot_S1024x1536_S512x1536_S1024x512_1_1_0_0_n_n rfl 1536 rfl j i

theorem dot_rhs_pos (j : S1024x512.Idx) (i : Fin 1536) :
    (dot_S1024x1536_S512x1536_S1024x512_1_1_0_0_n_n.rhsIdx j
      ((Cert.Lib.Contraction.contrFin dot_S1024x1536_S512x1536_S1024x512_1_1_0_0_n_n (cl := 1) rfl 1536 rfl).symm i) 1).val = i.val :=
  Cert.Lib.Contraction.rhs_contracted dot_S1024x1536_S512x1536_S1024x512_1_1_0_0_n_n (cr := 1) rfl rfl 1536 rfl j i

/-- The product of a `1024 × 1536` block with the transpose of a `512 × 1536` block, accumulated into zero, read at `(p, q)`:
    the inner product of row `p` of the first with row `q` of the second. -/
theorem matmul_at (y0 : FVec Ideal S1024x1536 .bf16) (y1 : FVec Ideal S512x1536 .bf16) (p : Fin 1024) (q : Fin 512) :
    matmul dot_S1024x1536_S512x1536_S1024x512_1_1_0_0_n_n none y0 y1 (constant (F := Ideal) S1024x512 .f32 0x00000000#32) (ix2 p q)
      = ∑ k : Fin 1536, y0 (ix2 p k) * y1 (ix2 q k) := by
  refine (Ideal.matmul_constant_zero_apply dot_S1024x1536_S512x1536_S1024x512_1_1_0_0_n_n none y0 y1 (ix2 p q)).trans ?_
  rw [Cert.Lib.Contraction.sum_contr dot_S1024x1536_S512x1536_S1024x512_1_1_0_0_n_n (cl := 1) rfl 1536 rfl]
  refine Finset.sum_congr rfl fun k _ => ?_
  have hl : dot_S1024x1536_S512x1536_S1024x512_1_1_0_0_n_n.lhsIdx (ix2 p q)
      ((Cert.Lib.Contraction.contrFin dot_S1024x1536_S512x1536_S1024x512_1_1_0_0_n_n (cl := 1) rfl 1536 rfl).symm k) = ix2 p k :=
    Shape.idx_ext₂ (dot_lhs_row _ _) (dot_lhs_pos _ _)
  have hr : dot_S1024x1536_S512x1536_S1024x512_1_1_0_0_n_n.rhsIdx (ix2 p q)
      ((Cert.Lib.Contraction.contrFin dot_S1024x1536_S512x1536_S1024x512_1_1_0_0_n_n (cl := 1) rfl 1536 rfl).symm k) = ix2 q k :=
    Shape.idx_ext₂ (dot_rhs_row _ _) (dot_rhs_pos _ _)
  rw [hl, hr]

/-! ## The body's stored value at an index -/

theorem payload_at (x0 : Vec Ideal S1024x1536 .f32) (x1 : Vec Ideal S512x1536 .f32) (p : Fin 1024) (q : Fin 512) :
    k1_pay1 x0 x1 (ix2 p q)
      = ((∑ k : Fin 1536, x0 (ix2 p k) * x0 (ix2 p k)) + (∑ k : Fin 1536, x1 (ix2 q k) * x1 (ix2 q k)))
        - Ideal.ofBits .f32 0x40000000#32 * ∑ k : Fin 1536, x0 (ix2 p k) * x1 (ix2 q k) := by
  unfold k1_pay1
  simp only [shapeCast_self]
  rw [subf_apply, addf_apply, mulf_apply, broadcast_apply]
  rw [broadcastTo_a1_ab_apply, shapeCast_a_a1_apply, rowSum_apply, broadcastTo_1b_ab_apply, transpose_ix2_apply,
    shapeCast_a_a1_apply, rowSum_apply, matmul_at]
  simp only [mulf_apply, truncf_apply]
  rfl

/-! ## What a grid point writes back -/

/-- The body's stored value over blocks that are rows `1024 r …` of `A0` and rows `512 s …` of `A1`, at a block index
    that sits at `i` in the output: the squared distance at `i`. -/
theorem block_value (A0 A1 : FVec Ideal S4096x1536 .f32) (x0 : Vec Ideal S1024x1536 .f32) (x1 : Vec Ideal S512x1536 .f32)
    (r s : ℕ)
    (h0 : ∀ (y : S1024x1536.Idx) (i : S4096x1536.Idx), (i 0).val = r * 1024 + (y 0).val → (i 1).val = (y 1).val → x0 y = A0 i)
    (h1 : ∀ (y : S512x1536.Idx) (i : S4096x1536.Idx), (i 0).val = s * 512 + (y 0).val → (i 1).val = (y 1).val → x1 y = A1 i)
    (j : S1024x512.Idx) (i : S4096x4096.Idx) (hi0 : (i 0).val = r * 1024 + (j 0).val) (hi1 : (i 1).val = s * 512 + (j 1).val) :
    k1_pay1 x0 x1 j = Cert.Spec.dist A0 A1 i := by
  obtain ⟨p, q, rfl⟩ : ∃ (p : Fin 1024) (q : Fin 512), j = ix2 p q := ⟨j 0, j 1, eq_ix2 j⟩
  obtain ⟨a, b, rfl⟩ : ∃ (a : Fin 4096) (b : Fin 4096), i = ix2 a b := ⟨i 0, i 1, eq_ix2 i⟩
  rw [payload_at, Cert.Spec.dist_apply]
  unfold Cert.Spec.distAt
  have e0 : ∀ k : Fin 1536, x0 (ix2 p k) = A0 (ix2 a k) := fun k => h0 (ix2 p k) (ix2 a k) hi0 rfl
  have e1 : ∀ k : Fin 1536, x1 (ix2 q k) = A1 (ix2 b k) := fun k => h1 (ix2 q k) (ix2 b k) hi1 rfl
  simp only [e0, e1]

theorem zeros : (![0, 0] : Fin 2 → Nat) = fun _ => 0 := funext fun a => by fin_cases a <;> rfl

/-- The printed index maps, decided over the grid: the first input's row block is the output's row block, the second
    input's row block is the output's column block, both inputs take all their columns, and the output's block indices
    stay in the `4 × 8` box. -/
theorem index_facts : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 3 ∧ win1_2.index t (1 : Fin 2) ≤ 7 :=
  (by decide +kernel : ∀ t : Fin grid1.N, _)

/-- Every block of the `4 × 8` box is some point's. -/
theorem index_onto : ∀ (q0 : Fin 4) (q1 : Fin 8), ∃ t : Fin cfg1.N, win1_2.index t = ![q0.val, q1.val] :=
  (by decide +kernel : ∀ (q0 : Fin 4) (q1 : Fin 8), ∃ t : Fin grid1.N, win1_2.index t = ![q0.val, q1.val])

variable (V : (c : Dev nD) → (b : Ref sig .tc) → Buf (Elt Ideal) ((c : Thread nD τ).loc b))

/-- What point `t` writes back is block `t` of the distance matrix of the two arrays as the region finds them. -/
theorem flushed_eq (c : Dev nD) (t : Fin cfg1.N) :
    (dat1 (F := Ideal) V c).flushed 2 t
      = ((cfg1.win 2).blk t).view.read (Elt Ideal) (Cert.Spec.dist (V c main_arg0) (V c main_v2)) := by
  show (cfg1.win 2).cut (grid1.coords t) ((dat1 V c).after 2 t) = _
  rw [after1_2]
  unfold out1_2
  rw [View.canon_unit_zero zeros]
  simp only [View.ld_unit_zero (S := S1024x1536) zeros, View.ld_unit_zero (S := S512x1536) zeros]
  obtain ⟨e0, e1, e2, e3, -, -⟩ := index_facts t
  funext j
  show k1_pay1 (iblk1 V c 0 t) (iblk1 V c 1 t) j
    = Cert.Spec.dist (V c main_arg0) (V c main_v2) (((cfg1.win 2).blk t).view.emb j)
  refine block_value (V c main_arg0) (V c main_v2) (iblk1 V c 0 t) (iblk1 V c 1 t)
    (win1_2.index t (0 : Fin 2)) (win1_2.index t (1 : Fin 2)) ?_ ?_ j _ ?_ ?_
  · intro y i hy0 hy1
    show V c main_arg0 (((cfg1.win 0).blk t).view.emb y) = V c main_arg0 i
    refine congrArg (V c main_arg0) (funext fun a => Fin.ext ?_)
    match a with
    | ⟨0, _⟩ => show win1_0.index t (0 : Fin 2) * 1024 + 1 * (y 0).val = (i 0).val; omega
    | ⟨1, _⟩ => show win1_0.index t (1 : Fin 2) * 1536 + 1 * (y 1).val = (i 1).val; omega
  · intro y i hy0 hy1
    show V c main_v2 (((cfg1.win 1).blk t).view.emb y) = V c main_v2 i
    refine congrArg (V c main_v2) (funext fun a => Fin.ext ?_)
    match a with
    | ⟨0, _⟩ => show win1_1.index t (0 : Fin 2) * 512 + 1 * (y 0).val = (i 0).val; omega
    | ⟨1, _⟩ => show win1_1.index t (1 : Fin 2) * 1536 + 1 * (y 1).val = (i 1).val; omega
  · show win1_2.index t (0 : Fin 2) * 1024 + 1 * (j 0).val = win1_2.index t (0 : Fin 2) * 1024 + (j 0).val; omega
  · show win1_2.index t (1 : Fin 2) * 512 + 1 * (j 1).val = win1_2.index t (1 : Fin 2) * 512 + (j 1).val; omega

/-! ## The blocks tile the output -/

/-- An index of the output is in point `t`'s block iff each coordinate is in the block's range on its axis. -/
theorem mem_blk (t : Fin cfg1.N) (i : S4096x4096.Idx) :
    i ∈ ((cfg1.win 2).blk t).view.set ↔ ∀ a : Fin 2, win1_2.index t a * S1024x512.size a ≤ (i a).val
      ∧ (i a).val < win1_2.index t a * S1024x512.size a + S1024x512.size a := by
  show i ∈ ((View.whole main_v3).slice (win1_2.rect t)).set ↔ _
  rw [View.set_slice_whole, Rect.mem_set_unit]
  exact Iff.rfl

/-- Every index of the output is in the block of the point `(i₀ / 1024, i₁ / 512)`, which writes back. -/
theorem cover (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ := index_onto ⟨(i 0).val / 1024, by omega⟩ ⟨(i 1).val / 512, by omega⟩
  have q0 : win1_2.index t (0 : Fin 2) = (i 0).val / 1024 := congrFun ht 0
  have q1 : win1_2.index t (1 : Fin 2) = (i 1).val / 512 := congrFun ht 1
  refine ⟨t, flush1_2 t, ?_⟩
  rw [mem_blk]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 512 ≤ (i 1).val ∧ (i 1).val < win1_2.index t (1 : Fin 2) * 512 + 512
    omega

/-! ## The output array after the region -/

/-- The output array after the region's write-backs is the distance matrix of the two input arrays as the region finds them. -/
theorem final (c : Dev nD) :
    (dat1 (F := Ideal) V c).arrAt 2 cfg1.N = Cert.Spec.dist (V c main_arg0) (V c main_v2) :=
  (dat1 V c).arrAt_eq_of_cover 2 (Cert.Spec.dist (V c main_arg0) (V c main_v2)) (fun t _ => flushed_eq V c t) cover

end Cert.KernelIdeal.DistValue

end
-- ==== Proof.KernelValue.lean ====
/-
  The kernel program's result array as a function of the launch memory. The second region leaves the distance matrix of
  the first argument's rows against the array the first region left; the first region left the projection of the second
  argument's rows by the arrays the host operations before it wrote: the weight matrix under a change of float format,
  which is the identity on the extended reals, and the bias reshaped to one row, which reads back as the bias.
-/
import proofs.«109918_j71829033058971_1_alg».proof.Proof.Gen.KernelIdeal.Frame
import proofs.«109918_j71829033058971_1_alg».proof.Proof.Spec
import proofs.«109918_j71829033058971_1_alg».proof.Proof.ProjValue
import proofs.«109918_j71829033058971_1_alg».proof.Proof.DistValue
import proofs.«109918_j71829033058971_1_alg».proof.Proof.RunNamed
import Idealize.ShloMosaic.Lib.StableHlo.Run
import Idealize.ShloMosaic.Lib.ValueIdx
import Idealize.ShloMosaic.Lib.ValueLayout

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the first region finds -/

/-- No host operation writes the second argument: the first region finds it as launched. -/
theorem entry_rows (c : Dev nD) : V1 m ρ c main_arg1 = m ((c : Thread nD τ).loc main_arg1) := by
  show StableHlo.after hostOps0 (W0 m ρ c) (Proc.devRef .tc main_arg1) = _
  after_results

/-- The weight window's array is the third argument under the change of float format. -/
theorem entry_weights (c : Dev nD) :
    (V1 m ρ c main_v0 : S1536x1536.Idx → EReal)
      = (truncf (F := Ideal) .bf16 (m ((c : Thread nD τ).loc main_arg2) : FVec Ideal S1536x1536 .f32) bitsLt_bf16_f32 : S1536x1536.Idx → EReal) := by
  show StableHlo.after hostOps0 (W0 m ρ c) (Proc.devRef .tc main_v0) = _
  after_results

/-- The bias window's array is the fourth argument reshaped to one row. -/
theorem entry_bias (c : Dev nD) :
    (V1 m ρ c main_v1 : S1x1536.Idx → EReal)
      = (shapeCast S1x1536 (m ((c : Thread nD τ).loc main_arg3) : S1536.Idx → EReal) shapeCasts_S1536_S1x1536 : S1x1536.Idx → EReal) := by
  show StableHlo.after hostOps0 (W0 m ρ c) (Proc.devRef .tc main_v1) = _
  after_results
  rfl

/-- So what the first region leaves is the projection of the second argument's rows by the third and fourth arguments. -/
theorem proj_result (c : Dev nD) :
    ProjValue.result (V1 m ρ) c
      = Cert.Spec.proj (m ((c : Thread nD τ).loc main_arg1)) (m ((c : Thread nD τ).loc main_arg2)) (m ((c : Thread nD τ).loc main_arg3)) := by
  have h1 : ProjValue.rowsArr (V1 m ρ) c = m ((c : Thread nD τ).loc main_arg1) := entry_rows m ρ c
  have h2 : ProjValue.wArr (V1 m ρ) c = m ((c : Thread nD τ).loc main_arg2) := (entry_weights m ρ c).trans rfl
  have h3 : ProjValue.biasArr (V1 m ρ) c = m ((c : Thread nD τ).loc main_arg3) := by
    funext j
    obtain ⟨d, rfl⟩ : ∃ d : Fin 1536, j = ix1 d := ⟨j 0, eq_ix1 j⟩
    show (V1 m ρ c main_v1 : S1x1536.Idx → EReal) (ix2 (0 : Fin 1) d) = m ((c : Thread nD τ).loc main_arg3) (ix1 d)
    rw [entry_bias]
    exact shapeCast_a_1a_apply _ _ (0 : Fin 1) d
  unfold ProjValue.result
  rw [h1, h2, h3]

/-! ## What the second region finds -/

/-- The first argument reaches the second region as launched: no host operation and no window of the first region writes it. -/
theorem exit_rows (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The first region's output array reaches the second region holding the projection. -/
theorem exit_proj (c : Dev nD) :
    V2 m ρ c main_v2
      = Cert.Spec.proj (m ((c : Thread nD τ).loc main_arg1)) (m ((c : Thread nD τ).loc main_arg2)) (m ((c : Thread nD τ).loc main_arg3)) :=
  (W2_arr m ρ c 3).trans ((ProjValue.final (V1 m ρ) c).trans (proj_result m ρ c))

/-! ## The result -/

/-- The result array after the run: the distance matrix of the first argument's rows against the projection of the second
    argument's rows, all read off the launch memory. -/
theorem result_eq (c : Dev nD) :
    W3 m ρ c (Proc.devRef .tc main_v3)
      = Cert.Spec.dist (m ((c : Thread nD τ).loc main_arg0))
          (Cert.Spec.proj (m ((c : Thread nD τ).loc main_arg1)) (m ((c : Thread nD τ).loc main_arg2)) (m ((c : Thread nD τ).loc main_arg3))) :=
  (W3_arr m ρ c 2).trans ((DistValue.final (V2 m ρ) c).trans
    (congrArg₂ Cert.Spec.dist (exit_rows m ρ c) (exit_proj m ρ c)))

/-- Every weakly fair execution of the kernel program terminates, nothing faulting, with the result array at that function
    of the arguments and the arguments as launched. -/
theorem run : θ_run defs (onTc (τ := τ) (main (F := Ideal))) ⟨m, fun _ => 0, ρ⟩ (fun r => ∀ c : Dev nD,
      r.2.mem ((c.tc : Thread nD τ).loc main_v3)
        = Cert.Spec.dist (m ((c : Thread nD τ).loc main_arg0))
            (Cert.Spec.proj (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Cert.KernelIdeal.Named.run m ρ)

end Cert.KernelIdeal.KernelValue

end
-- ==== Proof.RefValue.lean ====
/-
  The reference program's result is the distance matrix of the rows of its first argument against the projected rows.

  The reference first forms the projected rows: it transposes the weight matrix and contracts the transposed matrix's
  first axis, which is the weight's second axis, so entry `(r, d)` is `∑ k, x[r,k] · w[d,k]`, to which the bias
  `b[d]`, broadcast along the rows, is added (`proj_eq`). It then sums the squares of each row of the first argument and
  of each projected row, each sum started from the zero word, spreads the first sum along the columns and the second along
  the rows, and subtracts twice the matrix of inner products; the inner products come from contracting the first
  argument's second axis with the first axis of the projected rows transposed, which is again their second axis. Entry
  `(p, q)` is therefore `(∑ k, t[p,k]² + ∑ k, s[q,k]²) − 2 · ∑ k, t[p,k] · s[q,k]` (`ref_eq`). The word for two is never
  evaluated: it is the same word on both sides.
-/
import proofs.«109918_j71829033058971_1_alg».proof.Proof.Gen.ReferenceIdeal.Read
import proofs.«109918_j71829033058971_1_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-! ## Where each operation reads its operands, by coordinates -/

/-- The first contraction reads row `r` of its left operand at position `k`. -/
theorem left_of_proj (r : Fin 4096) (d k : Fin 1536) : lidx_main_v1 (ix2 r d) k = ix2 r k :=
  funext fun a => Fin.ext (by match a with | ⟨0, _⟩ => rfl | ⟨1, _⟩ => rfl)

/-- The first contraction reads the transposed weight at `(k, d)`, which is the weight at `(d, k)`. -/
theorem right_of_proj (r : Fin 4096) (d k : Fin 1536) : idx_main_v0 (ridx_main_v1 (ix2 r d) k) = ix2 d k :=
  funext fun a => Fin.ext (by match a with | ⟨0, _⟩ => rfl | ⟨1, _⟩ => rfl)

/-- The bias, broadcast to a row and then along the rows, is read at the column. -/
theorem bias_of_proj (r : Fin 4096) (d : Fin 1536) : idx_main_v2 (idx_main_v3 (ix2 r d)) = ix1 d :=
  funext fun a => Fin.ext (by match a with | ⟨0, _⟩ => rfl)

/-- The first row sum, spread along the columns, reads row `p`. -/
theorem row_of_left (p q : Fin 4096) (k : Fin 1536) :
    idx_main_v6 (idx_main_v11 (idx_main_v13 (ix2 p q))) k = ix2 p k :=
  funext fun a => Fin.ext (by match a with | ⟨0, _⟩ => rfl | ⟨1, _⟩ => rfl)

/-- The second row sum, spread along the rows, reads row `q`. -/
theorem row_of_right (p q : Fin 4096) (k : Fin 1536) :
    idx_main_v8 (idx_main_v12 (idx_main_v14 (ix2 p q))) k = ix2 q k :=
  funext fun a => Fin.ext (by match a with | ⟨0, _⟩ => rfl | ⟨1, _⟩ => rfl)

/-- The second contraction reads row `p` of its left operand at position `k`. -/
theorem left_of_inner (p q : Fin 4096) (k : Fin 1536) : lidx_main_v10 (ix2 p q) k = ix2 p k :=
  funext fun a => Fin.ext (by match a with | ⟨0, _⟩ => rfl | ⟨1, _⟩ => rfl)

/-- The second contraction reads the transposed projected rows at `(k, q)`, which is the projected rows at `(q, k)`. -/
theorem right_of_inner (p q : Fin 4096) (k : Fin 1536) : idx_main_v9 (ridx_main_v10 (ix2 p q) k) = ix2 q k :=
  funext fun a => Fin.ext (by match a with | ⟨0, _⟩ => rfl | ⟨1, _⟩ => rfl)

/-! ## The projected rows -/

/-- The reference's fifth value is the projection. -/
theorem proj_eq (x1 : FVec Ideal S4096x1536 .f32) (x2 : FVec Ideal S1536x1536 .f32) (x3 : FVec Ideal S1536 .f32) :
    val_main_v4 (F := Ideal) x1 x2 x3 = Cert.Spec.proj x1 x2 x3 := by
  funext i
  obtain ⟨r, d, rfl⟩ : ∃ (r : Fin 4096) (d : Fin 1536), i = ix2 r d := ⟨i 0, i 1, eq_ix2 i⟩
  rw [val_main_v4_apply, val_main_v1_apply, val_main_v3_apply, val_main_v2_apply, Cert.Spec.proj_apply, Ideal.addf_def,
    bias_of_proj]
  unfold Cert.Spec.projAt
  refine congrArg (· + _) (Finset.sum_congr rfl fun k _ => ?_)
  rw [val_main_v0_apply, left_of_proj, right_of_proj]

/-! ## The result -/

/-- The reference's result is the distance matrix of the first argument's rows against the projected rows. -/
theorem ref_eq (x0 x1 : FVec Ideal S4096x1536 .f32) (x2 : FVec Ideal S1536x1536 .f32) (x3 : FVec Ideal S1536 .f32) :
    Cert.ReferenceIdeal.Read.val_main_v18 (F := Ideal) x0 x1 x2 x3 = Cert.Spec.dist x0 (Cert.Spec.proj x1 x2 x3) := by
  funext i
  obtain ⟨p, q, rfl⟩ : ∃ (p q : Fin 4096), i = ix2 p q := ⟨i 0, i 1, eq_ix2 i⟩
  rw [val_main_v18_apply, val_main_v15_apply, val_main_v13_apply, val_main_v11_apply, val_main_v6_apply,
    val_main_v14_apply, val_main_v12_apply, val_main_v8_apply, val_main_v17_apply, val_main_v16_apply,
    val_main_cst_1_apply, val_main_v10_apply, val_main_cst_apply, val_main_cst_0_apply]
  simp only [val_main_v5_apply, val_main_v7_apply, val_main_v9_apply]
  rw [proj_eq]
  generalize Cert.Spec.proj x1 x2 x3 = s
  simp only [row_of_left, row_of_right, left_of_inner, right_of_inner]
  rw [Cert.Spec.dist_apply, Ideal.subf_def, Ideal.addf_def, Ideal.mulf_def, Ideal.ofBits_def, Ideal.ofBits_def,
    Ideal.ofBits_zero_f32, zero_add, zero_add]
  simp only [Ideal.mulf_def]
  rfl

end Cert.ReferenceIdeal.RefValue

end
-- ==== Proof.lean ====
/-
  The kernel and its reference compute one function of the four arguments over the extended reals.

  Write `t` for the first argument's rows, `x` for the second's, `w` for the weight matrix and `b` for the bias. Both programs
  first form the projected rows `s[q, d] = ∑ k, x[q, k] · w[d, k] + b[d]` and then the matrix
  `(∑ k, t[p, k]² + ∑ k, s[q, k]²) − 2 · ∑ k, t[p, k] · s[q, k]`, the squared distance of row `p` of `t` from row `q` of `s` by
  the norm decomposition. The kernel does it in two grids: eight blocks of 512 projected rows, then a four by eight grid of
  1024 by 512 blocks of the result, each block from 1024 rows of `t` and 512 projected rows; its changes of float format
  are the identity on the extended reals and its products into a zero accumulator are plain sums. The reference does it on
  whole arrays, transposing before each contraction and starting each sum from zero. The two sides are the same
  arrangement of the same sums, so no law that needs finiteness is used and the precondition is never opened; the word
  for two is the same on both sides and is never evaluated.

  The three frames are the generated ones (the reference's is its generated run with the result dropped); the idealization
  rewrote nothing, so `preserves` asks nothing; `algebraic` puts the kernel's named run (`KernelValue.run`) beside the
  reference's run read as the same function (`RefValue.ref_eq`).
-/
import proofs.«109918_j71829033058971_1_alg».proof.Defs
import proofs.«109918_j71829033058971_1_alg».proof.Proof.Gen.Kernel
import proofs.«109918_j71829033058971_1_alg».proof.Proof.Gen.Kernel.Skeleton
import proofs.«109918_j71829033058971_1_alg».proof.Proof.Gen.Kernel.Launch
import proofs.«109918_j71829033058971_1_alg».proof.Proof.Gen.Kernel.Points
import proofs.«109918_j71829033058971_1_alg».proof.Proof.Gen.Kernel.Frame
import proofs.«109918_j71829033058971_1_alg».proof.Proof.Gen.KernelIdeal
import proofs.«109918_j71829033058971_1_alg».proof.Proof.Gen.KernelIdeal.Skeleton
import proofs.«109918_j71829033058971_1_alg».proof.Proof.Gen.KernelIdeal.Launch
import proofs.«109918_j71829033058971_1_alg».proof.Proof.Gen.KernelIdeal.Points
import proofs.«109918_j71829033058971_1_alg».proof.Proof.Gen.KernelIdeal.Frame
import proofs.«109918_j71829033058971_1_alg».proof.Proof.Gen.ReferenceIdeal
import proofs.«109918_j71829033058971_1_alg».proof.Proof.Gen.ReferenceIdeal.Run
import proofs.«109918_j71829033058971_1_alg».proof.Proof.Gen.ReferenceIdeal.Read
import proofs.«109918_j71829033058971_1_alg».proof.Proof.Gen.Pre_finite_inputs
import proofs.«109918_j71829033058971_1_alg».proof.Proof.Spec
import proofs.«109918_j71829033058971_1_alg».proof.Proof.KernelValue
import proofs.«109918_j71829033058971_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the distance matrix of the first argument's rows against
    the projection of the second argument's rows. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
